-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4 : Shape := ⟨1, ![4]⟩
abbrev S16384x128x1 : Shape := ⟨3, ![16384, 128, 1]⟩
abbrev S16384x128x32 : Shape := ⟨3, ![16384, 128, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4 : S_.BroadcastsInDim S4 (![] : Fin 0 → Fin S4.rank)
  reducesTo_S4_S_d0 : S4.ReducesTo [0] S_
  bcast_S_S16384x128x1 : S_.BroadcastsInDim S16384x128x1 (![] : Fin 0 → Fin S16384x128x1.rank)
  reducesTo_S16384x128x1_S_d0_1_2 : S16384x128x1.ReducesTo [0, 1, 2] S_
  bcast_S_S16384x128x32 : S_.BroadcastsInDim S16384x128x32 (![] : Fin 0 → Fin S16384x128x32.rank)
  reducesTo_S16384x128x32_S_d0_1_2 : S16384x128x32.ReducesTo [0, 1, 2] S_

variable [Facts]

def fn_part1 {F : FTy → Type} [FloatOps F] (main_arg3 : IVec S16384x128x32 32) (main_v13 : IVec S_ 1) (main_v15 : IVec S16384x128x32 1) (main_c_5 : IVec S_ 32) : IVec S_ 1 :=
  let main_v16 : IVec S16384x128x32 32 := broadcastInDim S16384x128x32 ![] bcast_S_S16384x128x32 main_c_5
  let main_v17 : IVec S16384x128x32 1 := cmpi .slt main_arg3 main_v16
  let main_v18 : IVec S16384x128x32 1 := andi main_v15 main_v17
  let main_c_6 : IVec S_ 1 := constantI S_ 1 1#1
  let main_v19 : IVec S_ 1 := (fun x v => Host.reduce IntOp.andi x v reducesTo_S16384x128x32_S_d0_1_2 h_S_) main_v18 main_c_6
  let main_v20 : IVec S_ 1 := andi main_v13 main_v19
  main_v20

def fn {F : FTy → Type} [FloatOps F] (main_arg0 : FVec F S4x2048x4096 .f32) (main_arg1 : FVec F S4 .f32) (main_arg2 : FVec F S16384x128x1 .f32) (main_arg3 : IVec S16384x128x32 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4 .f32 := Host.absf main_arg1
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S16384x128x1 .f32 := Host.absf main_arg2
  let main_cst_2 : FVec F S_ .f32 := constant S_ .f32 0x7F800000#32
  let main_v10 : FVec F S16384x128x1 .f32 := broadcastInDim S16384x128x1 ![] bcast_S_S16384x128x1 main_cst_2
  let main_v11 : IVec S16384x128x1 1 := cmpf .olt main_v9 main_v10
  let main_c_3 : IVec S_ 1 := constantI S_ 1 1#1
  let main_v12 : IVec S_ 1 := (fun x v => Host.reduce IntOp.andi x v reducesTo_S16384x128x1_S_d0_1_2 h_S_) main_v11 main_c_3
  let main_v13 : IVec S_ 1 := andi main_v8 main_v12
  let main_c_4 : IVec S_ 32 := constantI S_ 32 0#32
  let main_v14 : IVec S16384x128x32 32 := broadcastInDim S16384x128x32 ![] bcast_S_S16384x128x32 main_c_4
  let main_v15 : IVec S16384x128x32 1 := cmpi .sge main_arg3 main_v14
  let main_c_5 : IVec S_ 32 := constantI S_ 32 4#32
  fn_part1 (F := F) main_arg3 main_v13 main_v15 main_c_5
-- ==== Kernel.lean ====
abbrev S4x2048x4096 : Shape := ⟨3, ![4, 2048, 4096]⟩
abbrev S4 : Shape := ⟨1, ![4]⟩
abbrev S16384x128x1 : Shape := ⟨3, ![16384, 128, 1]⟩
abbrev S16384x128x32 : Shape := ⟨3, ![16384, 128, 32]⟩
abbrev S_ : Shape := ⟨0, ![]⟩
abbrev S1x4 : Shape := ⟨2, ![1, 4]⟩
abbrev S16384x4096 : Shape := ⟨2, ![16384, 4096]⟩
abbrev S8192x4096 : Shape := ⟨2, ![8192, 4096]⟩
abbrev S8192x16384 : Shape := ⟨2, ![8192, 16384]⟩
abbrev S512x4096 : Shape := ⟨2, ![512, 4096]⟩
abbrev S1024x4096 : Shape := ⟨2, ![1024, 4096]⟩
abbrev S1024x512 : Shape := ⟨2, ![1024, 512]⟩
abbrev S1x1 : Shape := ⟨2, ![1, 1]⟩
abbrev S4x2048x16384 : Shape := ⟨3, ![4, 2048, 16384]⟩

abbrev nBuf : Space → Nat
  | .hbm => 22
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4, .f32⟩
  | .hbm, ⟨2, _⟩ => ⟨S16384x128x1, .f32⟩
  | .hbm, ⟨3, _⟩ => ⟨S16384x128x32, .i32⟩
  | .hbm, ⟨4, _⟩ => ⟨S4, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S1x4, .f32⟩
  | .hbm, ⟨13, _⟩ => ⟨S16384x4096, .i32⟩
  | .hbm, ⟨14, _⟩ => ⟨S16384x128x1, .f32⟩
  | .hbm, ⟨15, _⟩ => ⟨S16384x128x32, .f32⟩
  | .hbm, ⟨16, _⟩ => ⟨S16384x4096, .f32⟩
  | .hbm, ⟨17, _⟩ => ⟨S16384x4096, .bf16⟩
  | .hbm, ⟨18, _⟩ => ⟨S8192x4096, .f32⟩
  | .hbm, ⟨19, _⟩ => ⟨S8192x4096, .bf16⟩
  | .hbm, ⟨20, _⟩ => ⟨S8192x16384, .f32⟩
  | .hbm, ⟨21, _⟩ => ⟨S4x2048x16384, .f32⟩
  | .local _ .vmem, ⟨0, _⟩ => ⟨S1x4, .f32⟩
  | .local _ .vmem, ⟨1, _⟩ => ⟨S512x4096, .i32⟩
  | .local _ .vmem, ⟨2, _⟩ => ⟨S512x4096, .i32⟩
  | .local _ .vmem, ⟨3, _⟩ => ⟨S512x4096, .bf16⟩
  | .local _ .vmem, ⟨4, _⟩ => ⟨S512x4096, .bf16⟩
  | .local _ .vmem, ⟨5, _⟩ => ⟨S1024x4096, .bf16⟩
  | .local _ .vmem, ⟨6, _⟩ => ⟨S1024x4096, .bf16⟩
  | .local _ .vmem, ⟨7, _⟩ => ⟨S1024x512, .f32⟩
  | .local _ .vmem, ⟨8, _⟩ => ⟨S1024x512, .f32⟩
  | .local _ .vmem, ⟨9, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4_S_d0 : S4.ReducesTo [0] S_
  h_S_ : 0 < S_.numel
  bcast_S_S4 : S_.BroadcastsInDim S4 (![] : Fin 0 → Fin S4.rank)
  shapeCasts_S4_S1x4 : S4.ShapeCasts S1x4
  shapeCasts_S16384x128x32_S16384x4096 : S16384x128x32.ShapeCasts S16384x4096
  bcast_S16384x128x1_S16384x128x32_0_1_2 : S16384x128x1.BroadcastsInDim S16384x128x32 (![0, 1, 2] : Fin 3 → Fin S16384x128x32.rank)
  bitsLt_bf16_f32 : FTy.bits .bf16 < FTy.bits .f32
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4_S1x4_0_0 : ∀ a, (![0, 0] : Fin 2 → Nat) a + S1x4.size a ≤ S1x4.size a
  h_S1x4 : 0 < S1x4.numel
  shapeCasts_S1x4_S1x4 : S1x4.ShapeCasts S1x4
  slices_S1x4_o0_0_S1x1 : S1x4.Slices ![0, 0] S1x1
  inpos_S1x1_p0_0 : ∀ a, (![0, 0] : Fin 2 → Nat) a < S1x1.size a
  slices_S1x4_o0_1_S1x1 : S1x4.Slices ![0, 1] S1x1
  slices_S1x4_o0_2_S1x1 : S1x4.Slices ![0, 2] S1x1
  slices_S1x4_o0_3_S1x1 : S1x4.Slices ![0, 3] S1x1
  packedbf16_S512x4096_S512x4096_0_0 : (Rect.unit (s := S512x4096) ![0, 0] S512x4096.size inb_S512x4096_S512x4096_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x512_S1024x512_0_0 : ∀ a, (![0, 0] : Fin 2 → Nat) a + S1024x512.size a ≤ S1024x512.size a
  h_S1024x512 : 0 < S1024x512.numel
  shapeCasts_S8192x16384_S4x2048x16384 : S8192x16384.ShapeCasts S4x2048x16384
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4.size a ≤ S1x4.size a
  hwx0_0 : ∀ i : grid0.Coords, EltTy.bits .f32 = 32 ∨ (Rect.block (s := S1x4) S1x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .i32 = 32 ∨ (Rect.block (s := S16384x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .bf16 = 32 ∨ (Rect.block (s := S16384x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S8192x4096.size a
  hwx0_3 : ∀ i : grid0.Coords, EltTy.bits .bf16 = 32 ∨ (Rect.block (s := S8192x4096) S1024x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x16384.size a
  hwx0_4 : ∀ i : grid0.Coords, EltTy.bits .f32 = 32 ∨ (Rect.block (s := S8192x16384) S1024x512.size (cc0_transform_4 i) (hinb0_4 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v5) S1x4.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4 : Shape := ⟨1, ![4]⟩
abbrev S16384x128x1 : Shape := ⟨3, ![16384, 128, 1]⟩
abbrev S16384x128x32 : Shape := ⟨3, ![16384, 128, 32]⟩
abbrev S_ : Shape := ⟨0, ![]⟩
abbrev S16384x128x32x1 : Shape := ⟨4, ![16384, 128, 32, 1]⟩
abbrev S16384x4096 : Shape := ⟨2, ![16384, 4096]⟩
abbrev S4x2048x16384 : Shape := ⟨3, ![4, 2048, 16384]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4, .f32⟩
  | .hbm, ⟨2, _⟩ => ⟨S16384x128x1, .f32⟩
  | .hbm, ⟨3, _⟩ => ⟨S16384x128x32, .i32⟩
  | .hbm, ⟨4, _⟩ => ⟨S4, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S_, .i32⟩
  | .hbm, ⟨13, _⟩ => ⟨S16384x128x32, .i32⟩
  | .hbm, ⟨14, _⟩ => ⟨S16384x128x32, .i1⟩
  | .hbm, ⟨15, _⟩ => ⟨S_, .i32⟩
  | .hbm, ⟨16, _⟩ => ⟨S16384x128x32, .i32⟩
  | .hbm, ⟨17, _⟩ => ⟨S16384x128x32, .i32⟩
  | .hbm, ⟨18, _⟩ => ⟨S16384x128x32, .i32⟩
  | .hbm, ⟨19, _⟩ => ⟨S16384x128x32x1, .i32⟩
  | .hbm, ⟨20, _⟩ => ⟨S16384x128x32, .f32⟩
  | .hbm, ⟨21, _⟩ => ⟨S16384x128x1, .f32⟩
  | .hbm, ⟨22, _⟩ => ⟨S16384x128x32, .f32⟩
  | .hbm, ⟨23, _⟩ => ⟨S16384x128x32, .f32⟩
  | .hbm, ⟨24, _⟩ => ⟨S16384x4096, .f32⟩
  | .hbm, ⟨25, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  reducesTo_S4_S_d0 : S4.ReducesTo [0] S_
  h_S_ : 0 < S_.numel
  bcast_S_S4 : S_.BroadcastsInDim S4 (![] : Fin 0 → Fin S4.rank)
  bcast_S_S16384x128x32 : S_.BroadcastsInDim S16384x128x32 (![] : Fin 0 → Fin S16384x128x32.rank)
  bcast_S16384x128x32_S16384x128x32x1_0_1_2 : S16384x128x32.BroadcastsInDim S16384x128x32x1 (![0, 1, 2] : Fin 3 → Fin S16384x128x32x1.rank)
  bcast_S16384x128x1_S16384x128x32_0_1_2 : S16384x128x1.BroadcastsInDim S16384x128x32 (![0, 1, 2] : Fin 3 → Fin S16384x128x32.rank)
  shapeCasts_S16384x128x32_S16384x4096 : S16384x128x32.ShapeCasts S16384x4096
  gather_S4_S16384x128x32x1_S16384x128x32_n_0_n_n_0_3_1_wf : GatherDims.WF S4 S16384x128x32x1 S16384x128x32 [] [0] [] [0] [] 3 ![1]
  dot_S4x2048x4096_S16384x4096_S4x2048x16384_2_1_01_0_n_n_wf : DotDims.WF S4x2048x4096 S16384x4096 S4x2048x16384 [2] [1] [0, 1] [0] [] []

variable [Facts₀]

def gather_S4_S16384x128x32x1_S16384x128x32_n_0_n_n_0_3_1 : GatherDims S4 S16384x128x32x1 S16384x128x32 where
  offsetDims := []
  collapsedSliceDims := [0]
  operandBatchingDims := []
  startIndicesBatchingDims := []
  startIndexMap := [0]
  indexVectorDim := 3
  sliceSizes := ![1]
  wf := gather_S4_S16384x128x32x1_S16384x128x32_n_0_n_n_0_3_1_wf
def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.HostVals.lean ====
/-
  What the kernel region finds in its four input arrays: the host operations before it, as values of the arguments.

  The codebook row is the normalised codebook laid out as one row of four; the code array is the codes flattened
  (row, group, lane) to (row, 32 · group + lane); the scale array is the exponential of the log-scales, repeated along
  the 32 lanes of each group and flattened the same way (then narrowed, which changes no ideal value); the `x` array
  is `x` with batch and position flattened to one row index (then narrowed likewise).
-/
import proofs.«418103_j69887707841172_4_alg».proof.Proof.Gen.KernelIdeal.Frame
import Idealize.ShloMosaic.Lib.StableHlo.Run
import Idealize.ShloMosaic.Lib.Pipeline.Value
import Idealize.ShloMosaic.Lib.Tactic

noncomputable section

open Idealize.ShloMosaic Idealize.ShloMosaic.TcCoe Idealize.SL.Sem

namespace Cert.KernelIdeal.HostVals

open Cert.KernelIdeal Cert.KernelIdeal.Gen Idealize.ShloMosaic.StableHlo

variable {F : FTy → Type} [FloatOps F]
variable (m : (ℓ : Loc nD τ sig) → Buf (Elt F) ℓ)

/-- The normalised codebook: every entry divided by the largest absolute entry, that maximum floored at a tiny
    positive constant. Both programs apply exactly these operations; nothing here ever opens them. -/
def cbn (a1 : FVec F S4 .f32) : FVec F S4 .f32 :=
  Host.divf a1 (broadcastInDim S4 ![] Facts₀.bcast_S_S4 (maximumf (id (constant S_ .f32 0x322BCC77#32))
    (Host.reduce FloatOps.maximumf (Host.absf a1) (constant S_ .f32 0xFF800000#32) Facts₀.reducesTo_S4_S_d0 Facts₀.h_S_)))

theorem V_v5 (c : Dev nD) : (V m c main_v5 : S1x4.Idx → F .f32)
    = shapeCast S1x4 (cbn (m ((c : Thread nD τ).loc main_arg1))) Facts₀.shapeCasts_S4_S1x4 := by
  dsimp only [V, V0]
  simp only [hostOps0, hostOps0_1, hostOps0_2, List.flatten_cons, List.flatten_nil, List.append_nil, List.cons_append,
    List.nil_append]
  after_results
  rfl

theorem V_v6 (c : Dev nD) : (V m c main_v6 : S16384x4096.Idx → BitVec 32)
    = shapeCast S16384x4096 (m ((c : Thread nD τ).loc main_arg3)) Facts₀.shapeCasts_S16384x128x32_S16384x4096 := by
  dsimp only [V, V0]
  simp only [hostOps0, hostOps0_1, hostOps0_2, List.flatten_cons, List.flatten_nil, List.append_nil, List.cons_append,
    List.nil_append]
  after_results
  rfl

theorem V_v10 (c : Dev nD) : (V m c main_v10 : S16384x4096.Idx → F .bf16)
    = truncf .bf16 (shapeCast S16384x4096 (broadcastInDim S16384x128x32 ![0, 1, 2] Facts₀.bcast_S16384x128x1_S16384x128x32_0_1_2
        (Host.exp (m ((c : Thread nD τ).loc main_arg2)))) Facts₀.shapeCasts_S16384x128x32_S16384x4096) Facts₀.bitsLt_bf16_f32 := by
  dsimp only [V, V0]
  simp only [hostOps0, hostOps0_1, hostOps0_2, List.flatten_cons, List.flatten_nil, List.append_nil, List.cons_append,
    List.nil_append]
  after_results
  rfl

theorem V_v12 (c : Dev nD) : (V m c main_v12 : S8192x4096.Idx → F .bf16)
    = truncf .bf16 (shapeCast S8192x4096 (m ((c : Thread nD τ).loc main_arg0)) Facts₀.shapeCasts_S4x2048x4096_S8192x4096) Facts₀.bitsLt_bf16_f32 := by
  dsimp only [V, V0]
  simp only [hostOps0, hostOps0_1, hostOps0_2, List.flatten_cons, List.flatten_nil, List.append_nil, List.cons_append,
    List.nil_append]
  after_results
  rfl

end Cert.KernelIdeal.HostVals

end
-- ==== Proof.Spec.lean ====
/-
  The mathematics both programs compute, stated once, over the extended reals, with no program in sight.

  A weight matrix of 16384 rows and 4096 columns is stored as two-bit CODES: column `k` of row `o` belongs to
  group `k / 32` (128 groups of 32 lanes), its code word `idx[o, k / 32, k % 32]` names one of the four entries of
  a normalised codebook `N`, and the group's scale is `E[o, k / 32, 0]` (the exponential of the stored log-scale;
  the exponential itself is never opened here: both programs apply the same one). The weight is the product
  `N[code] · E[o, k / 32, 0]`, and the layer's output at `(b, s, o)` is the inner product over `k` of row `(b, s)`
  of `x` with row `o` of the weights.

  Also here: the two readings of a code word the programs use — a chain of three selects on the word clamped
  into `[0, 3]`, and a table read at the word wrapped (a negative word plus 4) and then clamped — agree with
  `entry` on the four valid codes `0, 1, 2, 3`.
-/
import Idealize.ShloMosaic.PureOps.Ideal
import Idealize.ShloMosaic.Lib.ValueIdx

noncomputable section

open scoped BigOperators

namespace Cert.Dequant

open Idealize.ShloMosaic Idealize.ShloMosaic.ValueIdx

/-- The codebook entry a code word names: the word read signed and clamped into the table. -/
def entry (N : (⟨1, ![4]⟩ : Shape).Idx → EReal) (w : BitVec 32) : EReal :=
  N (ix1 ⟨min w.toInt.toNat 3, by omega⟩)

/-- A column's group: 32 consecutive columns share one scale. -/
def grp (k : Fin 4096) : Fin 128 := ⟨k.val / 32, by omega⟩
/-- A column's lane inside its group. -/
def lane (k : Fin 4096) : Fin 32 := ⟨k.val % 32, by omega⟩

/-- The dequantised weight at row `o`, column `k`: the named codebook entry times the group's scale. -/
def weight (N : (⟨1, ![4]⟩ : Shape).Idx → EReal) (E : (⟨3, ![16384, 128, 1]⟩ : Shape).Idx → EReal)
    (idx : (⟨3, ![16384, 128, 32]⟩ : Shape).Idx → BitVec 32) (o : Fin 16384) (k : Fin 4096) : EReal :=
  entry N (idx (ix3 o (grp k) (lane k))) * E (ix3 o (grp k) (0 : Fin 1))

/-- The layer's output at batch `b`, position `s`, output feature `o`. -/
def outAt (N : (⟨1, ![4]⟩ : Shape).Idx → EReal) (E : (⟨3, ![16384, 128, 1]⟩ : Shape).Idx → EReal)
    (x : (⟨3, ![4, 2048, 4096]⟩ : Shape).Idx → EReal) (idx : (⟨3, ![16384, 128, 32]⟩ : Shape).Idx → BitVec 32)
    (b : Fin 4) (s : Fin 2048) (o : Fin 16384) : EReal :=
  ∑ k : Fin 4096, x (ix3 b s k) * weight N E idx o k

/-- The whole output array. -/
def G (N : (⟨1, ![4]⟩ : Shape).Idx → EReal) (E : (⟨3, ![16384, 128, 1]⟩ : Shape).Idx → EReal)
    (x : (⟨3, ![4, 2048, 4096]⟩ : Shape).Idx → EReal) (idx : (⟨3, ![16384, 128, 32]⟩ : Shape).Idx → BitVec 32) :
    (⟨3, ![4, 2048, 16384]⟩ : Shape).Idx → EReal :=
  fun j => outAt N E x idx (j 0) (j 1) (j 2)

theorem G_apply (N : (⟨1, ![4]⟩ : Shape).Idx → EReal) (E : (⟨3, ![16384, 128, 1]⟩ : Shape).Idx → EReal)
    (x : (⟨3, ![4, 2048, 4096]⟩ : Shape).Idx → EReal) (idx : (⟨3, ![16384, 128, 32]⟩ : Shape).Idx → BitVec 32)
    (b : Fin 4) (s : Fin 2048) (o : Fin 16384) : G N E x idx (ix3 b s o) = outAt N E x idx b s o := rfl

/-- A valid code: one of the four words `0, 1, 2, 3`. -/
def IsCode (w : BitVec 32) : Prop := w = 0#32 ∨ w = 1#32 ∨ w = 2#32 ∨ w = 3#32

/-- A word that is non-negative and below 4 as a signed integer is a valid code. -/
theorem isCode_of_bounds (w : BitVec 32) (h0 : (0#32).sle w = true) (h4 : w.slt 4#32 = true) : IsCode w := by
  rw [BitVec.sle_iff_toInt_le] at h0
  rw [BitVec.slt_iff_toInt_lt] at h4
  have e0 : (0#32 : BitVec 32).toInt = 0 := by decide
  have e4 : (4#32 : BitVec 32).toInt = 4 := by decide
  rw [e0] at h0; rw [e4] at h4
  have hn : w.toNat < 4 := by
    have := BitVec.toInt_eq_toNat_cond w
    have hlt := w.isLt
    split at this <;> omega
  have hw : w = BitVec.ofNat 32 w.toNat := by simp
  unfold IsCode
  have : w.toNat = 0 ∨ w.toNat = 1 ∨ w.toNat = 2 ∨ w.toNat = 3 := by omega
  rcases this with h | h | h | h <;> rw [hw, h] <;> simp

/-- The select chain on the clamped word: entry 0 if the clamped word is 0, else entry 1 if it is 1, else entry 2
    if it is 2, else entry 3. -/
def pick (c0 c1 c2 c3 : EReal) (w : BitVec 32) : EReal :=
  Scalar.select (IntOp.cmpi .eq (IntOp.minsi 3#32 (IntOp.maxsi 0#32 w)) 0#32) c0
    (Scalar.select (IntOp.cmpi .eq (IntOp.minsi 3#32 (IntOp.maxsi 0#32 w)) 1#32) c1
      (Scalar.select (IntOp.cmpi .eq (IntOp.minsi 3#32 (IntOp.maxsi 0#32 w)) 2#32) c2 c3))

/-- On a valid code the select chain over the table's four entries reads the named entry. -/
theorem pick_eq_entry (N : (⟨1, ![4]⟩ : Shape).Idx → EReal) (w : BitVec 32) (hw : IsCode w) :
    pick (N (ix1 (0 : Fin 4))) (N (ix1 (1 : Fin 4))) (N (ix1 (2 : Fin 4))) (N (ix1 (3 : Fin 4))) w = entry N w := by
  rcases hw with rfl | rfl | rfl | rfl
  · exact congrArg N (congrArg ix1 (Fin.ext (by decide)))
  · exact congrArg N (congrArg ix1 (Fin.ext (by decide)))
  · exact congrArg N (congrArg ix1 (Fin.ext (by decide)))
  · exact congrArg N (congrArg ix1 (Fin.ext (by decide)))

/-- On a valid code, wrapping a negative word (adding the table's length 4) changes nothing. -/
theorem wrap_code (w : BitVec 32) (hw : IsCode w) :
    Scalar.select (IntOp.cmpi .slt w 0#32) (IntOp.addi w 4#32) w = w := by
  rcases hw with rfl | rfl | rfl | rfl <;> rfl

end Cert.Dequant

end
-- ==== Proof.Blocks.lean ====
/-
  The blocks the body is handed at a grid point, read off the argument arrays (at the ideal instance).

  The grid is 32 weight tiles (outer coordinate `t / 8`) by 8 row blocks of `x` (inner coordinate `t % 8`).
  At point `t`: the codebook block is the whole normalised codebook; the code block and the scale block are rows
  `512 · (t / 8) …` of the flattened codes and scales, whose column `k` is group `k / 32`, lane `k % 32`; the
  `x` block is rows `1024 · (t % 8) …` of `x` with batch and position flattened (row `R` is batch `R / 2048`,
  position `R % 2048`).
-/
import proofs.«418103_j69887707841172_4_alg».proof.Proof.HostVals
import proofs.«418103_j69887707841172_4_alg».proof.Proof.Spec
import Idealize.ShloMosaic.Lib.ValueIdx

noncomputable section

open Idealize.ShloMosaic Idealize.ShloMosaic.TcCoe Idealize.SL.Sem

namespace Cert.KernelIdeal.Blocks

open Cert.KernelIdeal Cert.KernelIdeal.Gen Cert.KernelIdeal.HostVals
open Idealize.ShloMosaic.ValueIdx Cert.Dequant

variable (m : (ℓ : Loc nD τ sig) → Buf (Elt Ideal) ℓ)

/-- The argument arrays, at their literal types. -/
abbrev xA (c : Dev nD) : FVec Ideal S4x2048x4096 .f32 := m ((c : Thread nD τ).loc main_arg0)
abbrev cbA (c : Dev nD) : FVec Ideal S4 .f32 := m ((c : Thread nD τ).loc main_arg1)
abbrev scA (c : Dev nD) : FVec Ideal S16384x128x1 .f32 := m ((c : Thread nD τ).loc main_arg2)
abbrev idA (c : Dev nD) : IVec S16384x128x32 32 := m ((c : Thread nD τ).loc main_arg3)
/-- The normalised codebook and the groups' scales. -/
abbrev NA (c : Dev nD) : FVec Ideal S4 .f32 := cbn (cbA m c)
abbrev EA (c : Dev nD) : FVec Ideal S16384x128x1 .f32 := Host.exp (F := Ideal) (scA m c)

/-- The four input blocks at a point, at their literal types. -/
abbrev cbBlk (c : Dev nD) (t : Fin cfg0.N) : FVec Ideal S1x4 .f32 := iblk m c 0 t
abbrev idBlk (c : Dev nD) (t : Fin cfg0.N) : IVec S512x4096 32 := iblk m c 1 t
abbrev scBlk (c : Dev nD) (t : Fin cfg0.N) : FVec Ideal S512x4096 .bf16 := iblk m c 2 t
abbrev xBlk (c : Dev nD) (t : Fin cfg0.N) : FVec Ideal S1024x4096 .bf16 := iblk m c 3 t

/-- The printed index maps over the grid: which block of each array a point reads or writes. -/
theorem idx_facts : ∀ t : Fin cfg0.N,
    win0_0.index t (0 : Fin 2) = 0 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 2) = t.val % 8 ∧ win0_3.index t (1 : Fin 2) = 0
    ∧ win0_4.index t (0 : Fin 2) = t.val % 8 ∧ win0_4.index t (1 : Fin 2) = t.val / 8 :=
  (by decide +kernel : ∀ t : Fin grid0.N, _)

/-- The tile's row `r` as a row of the weight matrix. -/
def wrow (t : Fin cfg0.N) (r : Fin 512) : Fin 16384 :=
  ⟨t.val / 8 * 512 + r.val, by have := t.isLt; have h : cfg0.N = 256 := N_0; have := r.isLt; omega⟩

/-- The `x` block's row `p` as a flattened (batch, position) row. -/
def xrow (t : Fin cfg0.N) (p : Fin 1024) : Fin 8192 :=
  ⟨t.val % 8 * 1024 + p.val, by have := p.isLt; omega⟩

theorem cbBlk_apply (c : Dev nD) (t : Fin cfg0.N) (j : Fin 4) :
    cbBlk m c t (ix2 (0 : Fin 1) j) = NA m c (ix1 j) := by
  obtain ⟨e0, e1, -⟩ := idx_facts t
  show V m c main_v5 (((cfg0.win 0).blk t).view.emb (ix2 (0 : Fin 1) j)) = _
  have he : ((cfg0.win 0).blk t).view.emb (ix2 (0 : Fin 1) j) = (ix2 (0 : Fin 1) j : S1x4.Idx) := by
    funext a; apply Fin.ext
    match a with
    | ⟨0, _⟩ => show win0_0.index t (0 : Fin 2) * 1 + 1 * 0 = 0; omega
    | ⟨1, _⟩ => show win0_0.index t (1 : Fin 2) * 4 + 1 * j.val = j.val; omega
  rw [he]
  refine (congrFun (V_v5 m c) (ix2 (0 : Fin 1) j)).trans ?_
  exact shapeCast_apply _ _ (ix2 (0 : Fin 1) j) (ix1 j) (by rw [Shape.rowMajor_val_one, Shape.rowMajor_val_two]; show j.val = 0 * 4 + j.val; omega)

theorem idBlk_apply (c : Dev nD) (t : Fin cfg0.N) (r : Fin 512) (k : Fin 4096) :
    idBlk m c t (ix2 r k) = idA m c (ix3 (wrow t r) (grp k) (lane k)) := by
  obtain ⟨-, -, e0, e1, -⟩ := idx_facts t
  show V m c main_v6 (((cfg0.win 1).blk t).view.emb (ix2 r k)) = _
  have he : ((cfg0.win 1).blk t).view.emb (ix2 r k) = (ix2 (wrow t r) k : S16384x4096.Idx) := by
    funext a; apply Fin.ext
    match a with
    | ⟨0, _⟩ => show win0_1.index t (0 : Fin 2) * 512 + 1 * r.val = t.val / 8 * 512 + r.val; omega
    | ⟨1, _⟩ => show win0_1.index t (1 : Fin 2) * 4096 + 1 * k.val = k.val; omega
  rw [he]
  refine (congrFun (V_v6 m c) (ix2 (wrow t r) k)).trans ?_
  exact shapeCast_apply (idA m c) _ (ix2 (wrow t r) k) (ix3 (wrow t r) (grp k) (lane k)) (by
    show (S16384x128x32.rowMajor (ix3 (wrow t r) (grp k) (lane k))).val = (S16384x4096.rowMajor (ix2 (wrow t r) k)).val
    rw [Shape.rowMajor_val_three, Shape.rowMajor_val_two]
    have hk := k.isLt
    show ((wrow t r).val * 128 + k.val / 32) * 32 + k.val % 32 = (wrow t r).val * 4096 + k.val; omega)

theorem scBlk_apply (c : Dev nD) (t : Fin cfg0.N) (r : Fin 512) (k : Fin 4096) :
    scBlk m c t (ix2 r k) = EA m c (ix3 (wrow t r) (grp k) (0 : Fin 1)) := by
  obtain ⟨-, -, -, -, e0, e1, -⟩ := idx_facts t
  show V m c main_v10 (((cfg0.win 2).blk t).view.emb (ix2 r k)) = _
  have he : ((cfg0.win 2).blk t).view.emb (ix2 r k) = (ix2 (wrow t r) k : S16384x4096.Idx) := by
    funext a; apply Fin.ext
    match a with
    | ⟨0, _⟩ => show win0_2.index t (0 : Fin 2) * 512 + 1 * r.val = t.val / 8 * 512 + r.val; omega
    | ⟨1, _⟩ => show win0_2.index t (1 : Fin 2) * 4096 + 1 * k.val = k.val; omega
  rw [he]
  refine (congrFun (V_v10 m c) (ix2 (wrow t r) k)).trans ?_
  refine (truncf_apply (φ := .f32) (ψ := .bf16) _ Facts₀.bitsLt_bf16_f32 _).trans ?_
  refine (shapeCast_apply _ _ (ix2 (wrow t r) k) (ix3 (wrow t r) (grp k) (lane k)) (by
    show (S16384x128x32.rowMajor (ix3 (wrow t r) (grp k) (lane k))).val = (S16384x4096.rowMajor (ix2 (wrow t r) k)).val
    rw [Shape.rowMajor_val_three, Shape.rowMajor_val_two]
    have hk := k.isLt
    show ((wrow t r).val * 128 + k.val / 32) * 32 + k.val % 32 = (wrow t r).val * 4096 + k.val; omega)).trans ?_
  exact broadcastInDim_apply _ _ _ (ix3 (wrow t r) (grp k) (lane k)) (ix3 (wrow t r) (grp k) (0 : Fin 1)) (fun a => by
    match a with
    | ⟨0, _⟩ => show (wrow t r).val = if (16384 : Nat) = 1 then 0 else (wrow t r).val; rw [if_neg (by decide)]
    | ⟨1, _⟩ => show (grp k).val = if (128 : Nat) = 1 then 0 else (grp k).val; rw [if_neg (by decide)]
    | ⟨2, _⟩ => show 0 = if (1 : Nat) = 1 then 0 else (lane k).val; rw [if_pos rfl])

theorem xBlk_apply (c : Dev nD) (t : Fin cfg0.N) (p : Fin 1024) (k : Fin 4096) :
    xBlk m c t (ix2 p k) = xA m c (ix3 (⟨(xrow t p).val / 2048, by have := (xrow t p).isLt; omega⟩ : Fin 4)
      (⟨(xrow t p).val % 2048, by omega⟩ : Fin 2048) k) := by
  obtain ⟨-, -, -, -, -, -, e0, e1, -⟩ := idx_facts t
  show V m c main_v12 (((cfg0.win 3).blk t).view.emb (ix2 p k)) = _
  have he : ((cfg0.win 3).blk t).view.emb (ix2 p k) = (ix2 (xrow t p) k : S8192x4096.Idx) := by
    funext a; apply Fin.ext
    match a with
    | ⟨0, _⟩ => show win0_3.index t (0 : Fin 2) * 1024 + 1 * p.val = t.val % 8 * 1024 + p.val; omega
    | ⟨1, _⟩ => show win0_3.index t (1 : Fin 2) * 4096 + 1 * k.val = k.val; omega
  rw [he]
  refine (congrFun (V_v12 m c) (ix2 (xrow t p) k)).trans ?_
  refine (truncf_apply (φ := .f32) (ψ := .bf16) _ Facts₀.bitsLt_bf16_f32 _).trans ?_
  exact shapeCast_apply (xA m c) _ (ix2 (xrow t p) k) (ix3 (⟨(xrow t p).val / 2048, by have := (xrow t p).isLt; omega⟩ : Fin 4)
      (⟨(xrow t p).val % 2048, by omega⟩ : Fin 2048) k) (by
    show (S4x2048x4096.rowMajor (ix3 (⟨(xrow t p).val / 2048, _⟩ : Fin 4) (⟨(xrow t p).val % 2048, _⟩ : Fin 2048) k)).val
      = (S8192x4096.rowMajor (ix2 (xrow t p) k)).val
    rw [Shape.rowMajor_val_three, Shape.rowMajor_val_two]
    have hk := k.isLt
    show ((xrow t p).val / 2048 * 2048 + (xrow t p).val % 2048) * 4096 + k.val = (xrow t p).val * 4096 + k.val; omega)

end Cert.KernelIdeal.Blocks

end
-- ==== Proof.Pieces.lean ====
/-
  What one run of the kernel body leaves behind, as values.

  At the first row-block of every weight tile (inner grid coordinate 0) the body dequantises the tile — one store
  covering the whole scratch, its value a function of the code block, the codebook row and the scale block — and then
  multiplies the `x` block with the scratch it has just written; at the other points it multiplies the `x` block
  with the scratch the point before left. Each output is one store covering its whole buffer, so what the buffer
  holds is that store's value.
-/
import proofs.«418103_j69887707841172_4_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

theorem scratch_A (c : Dev nD) (i : grid0.Coords) (arg2 : Memref sig .tc .vmem S1x4 .f32) (harg2 : arg2.IsWhole) (arg3 : Memref sig .tc .vmem S512x4096 .i32) (harg3 : arg3.IsWhole) (arg4 : Memref sig .tc .vmem S512x4096 .bf16) (harg4 : arg4.IsWhole) (arg5 : Memref sig .tc .vmem S1024x4096 .bf16) (harg5 : arg5.IsWhole) (arg6 : Memref sig .tc .vmem S1024x512 .f32) (harg6 : arg6.IsWhole) (arg7 : Memref sig .tc .vmem S512x4096 .bf16) (harg7 : arg7.IsWhole) (hc0 : cond0_0 i)
    (x0 : Vec F S1x4 .f32) (x1 : Vec F S512x4096 .i32) (x2 : Vec F S512x4096 .bf16) (x3 : Vec F S1024x4096 .bf16) :
    sout0_A_0 c i arg2 harg2 arg3 harg3 arg4 harg4 arg5 harg5 arg6 harg6 arg7 harg7 hc0 x0 x1 x2 x3 = k0_pay1 x1 x0 x2 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg2.read_unread, harg3.read_unread, harg4.read_unread,
    View.ld_unit_zero (S := S512x4096) hz, View.ld_unit_zero (S := S1x4) hz]

theorem out_A (c : Dev nD) (i : grid0.Coords) (arg2 : Memref sig .tc .vmem S1x4 .f32) (harg2 : arg2.IsWhole) (arg3 : Memref sig .tc .vmem S512x4096 .i32) (harg3 : arg3.IsWhole) (arg4 : Memref sig .tc .vmem S512x4096 .bf16) (harg4 : arg4.IsWhole) (arg5 : Memref sig .tc .vmem S1024x4096 .bf16) (harg5 : arg5.IsWhole) (arg6 : Memref sig .tc .vmem S1024x512 .f32) (harg6 : arg6.IsWhole) (arg7 : Memref sig .tc .vmem S512x4096 .bf16) (harg7 : arg7.IsWhole) (hc0 : cond0_0 i)
    (x0 : Vec F S1x4 .f32) (x1 : Vec F S512x4096 .i32) (x2 : Vec F S512x4096 .bf16) (x3 : Vec F S1024x4096 .bf16) :
    out0_A_4 c i arg2 harg2 arg3 harg3 arg4 harg4 arg5 harg5 arg6 harg6 arg7 harg7 hc0 x0 x1 x2 x3 = k0_pay2 x3 (k0_pay1 x1 x0 x2) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg2.read_unread, harg3.read_unread, harg4.read_unread, harg5.read_unread,
    View.readCov_unit_zero (S := S512x4096) _ hz,
    View.ld_unit_zero (S := S512x4096) hz, View.ld_unit_zero (S := S1x4) hz, View.ld_unit_zero (S := S1024x4096) hz]

theorem out_B (c : Dev nD) (i : grid0.Coords) (arg2 : Memref sig .tc .vmem S1x4 .f32) (harg2 : arg2.IsWhole) (arg3 : Memref sig .tc .vmem S512x4096 .i32) (harg3 : arg3.IsWhole) (arg4 : Memref sig .tc .vmem S512x4096 .bf16) (harg4 : arg4.IsWhole) (arg5 : Memref sig .tc .vmem S1024x4096 .bf16) (harg5 : arg5.IsWhole) (arg6 : Memref sig .tc .vmem S1024x512 .f32) (harg6 : arg6.IsWhole) (arg7 : Memref sig .tc .vmem S512x4096 .bf16) (harg7 : arg7.IsWhole) (hc0 : ¬cond0_0 i)
    (x0 : Vec F S1x4 .f32) (x1 : Vec F S512x4096 .i32) (x2 : Vec F S512x4096 .bf16) (x3 : Vec F S1024x4096 .bf16) (xs0 : Vec F S512x4096 .bf16) :
    out0_B_4 c i arg2 harg2 arg3 harg3 arg4 harg4 arg5 harg5 arg6 harg6 arg7 harg7 hc0 x0 x1 x2 x3 xs0 = k0_pay2 x3 xs0 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  rw [View.canon_unit_zero hz]
  simp only [View.readAt_eq_ld, harg5.read_unread, harg7.read_unread,
    View.ld_unit_zero (S := S512x4096) hz, View.ld_unit_zero (S := S1024x4096) hz]

end Cert.KernelIdeal.Pieces

end
-- ==== Proof.Payload.lean ====
/-
  The body's two stored values read at an index, at the ideal instance.

  The dequantised tile at `(r, k)`: the chain of selects on the clamped code word over the four codebook entries,
  times the scale block's entry. The product tile at `(p, q)`: the inner product over the 4096 columns of row `p`
  of the `x` block with row `q` of the weight tile (a matrix product into the zero accumulator is the plain sum).
-/
import proofs.«418103_j69887707841172_4_alg».proof.Proof.Gen.KernelIdeal.Skeleton
import proofs.«418103_j69887707841172_4_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx Cert.Dequant

/-- The dequantised tile at row `r`, column `k`. -/
theorem pay1_apply (v8 : IVec S512x4096 32) (v14 : FVec Ideal S1x4 .f32) (v38 : FVec Ideal S512x4096 .bf16)
    (r : Fin 512) (k : Fin 4096) :
    k0_pay1 (F := Ideal) v8 v14 v38 (ix2 r k)
      = pick (v14 (ix2 (0 : Fin 1) (0 : Fin 4))) (v14 (ix2 (0 : Fin 1) (1 : Fin 4))) (v14 (ix2 (0 : Fin 1) (2 : Fin 4)))
          (v14 (ix2 (0 : Fin 1) (3 : Fin 4))) (v8 (ix2 r k)) * v38 (ix2 r k) := by
  have e0 : extractAt ![0, 0] (extractStridedSlice S1x1 ![0, 0] v14 slices_S1x4_o0_0_S1x1) inpos_S1x1_p0_0
      = v14 (ix2 (0 : Fin 1) (0 : Fin 4)) :=
    congrArg v14 (funext fun a => Fin.ext (by match a with | ⟨0, _⟩ => rfl | ⟨1, _⟩ => rfl))
  have e1 : extractAt ![0, 0] (extractStridedSlice S1x1 ![0, 1] v14 slices_S1x4_o0_1_S1x1) inpos_S1x1_p0_0
      = v14 (ix2 (0 : Fin 1) (1 : Fin 4)) :=
    congrArg v14 (funext fun a => Fin.ext (by match a with | ⟨0, _⟩ => rfl | ⟨1, _⟩ => rfl))
  have e2 : extractAt ![0, 0] (extractStridedSlice S1x1 ![0, 2] v14 slices_S1x4_o0_2_S1x1) inpos_S1x1_p0_0
      = v14 (ix2 (0 : Fin 1) (2 : Fin 4)) :=
    congrArg v14 (funext fun a => Fin.ext (by match a with | ⟨0, _⟩ => rfl | ⟨1, _⟩ => rfl))
  have e3 : extractAt ![0, 0] (extractStridedSlice S1x1 ![0, 3] v14 slices_S1x4_o0_3_S1x1) inpos_S1x1_p0_0
      = v14 (ix2 (0 : Fin 1) (3 : Fin 4)) :=
    congrArg v14 (funext fun a => Fin.ext (by match a with | ⟨0, _⟩ => rfl | ⟨1, _⟩ => rfl))
  unfold k0_pay1
  simp only [shapeCast_self]
  rw [← e0, ← e1, ← e2, ← e3]
  rfl

theorem lhs_0 (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
theorem lhs_1 (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
theorem rhs_0 (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
theorem rhs_1 (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

/-- The product tile at row `p`, column `q`. -/
theorem pay2_apply (v3 : FVec Ideal S1024x4096 .bf16) (v5 : FVec Ideal S512x4096 .bf16) (p : Fin 1024) (q : Fin 512) :
    k0_pay2 (F := Ideal) v3 v5 (ix2 p q) = ∑ k : Fin 4096, v3 (ix2 p k) * v5 (ix2 q k) := by
  unfold k0_pay2
  simp only [shapeCast_self]
  refine (Ideal.matmul_constant_zero_apply dot_S1024x4096_S512x4096_S1024x512_1_1_0_0_n_n none v3 v5 (ix2 p q)).trans ?_
  rw [← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q) ((contrEquiv1 dot_S1024x4096_S512x4096_S1024x512_1_1_0_0_n_n 4096 rfl rfl).symm k) = ix2 p k := funext fun a => Fin.ext (by
    match a with
    | ⟨0, _⟩ => exact lhs_0 _ _
    | ⟨1, _⟩ => exact (lhs_1 _ _).trans hk)
  have er : dot_S1024x4096_S512x4096_S1024x512_1_1_0_0_n_n.rhsIdx (ix2 p q) ((contrEquiv1 dot_S1024x4096_S512x4096_S1024x512_1_1_0_0_n_n 4096 rfl rfl).symm k) = ix2 q k := funext fun a => Fin.ext (by
    match a with
    | ⟨0, _⟩ => exact rhs_0 _ _
    | ⟨1, _⟩ => exact (rhs_1 _ _).trans hk)
  rw [el, er]

end Cert.KernelIdeal.Payload

end
-- ==== Proof.Tiles.lean ====
/-
  What the kernel's program computes: its result array is the specification `Cert.Dequant.G`.

  Point by point over the grid. The scratch after point `t` holds weight tile `t / 8`: at the tile's first point
  it is dequantised from that tile's code and scale blocks (on valid codes the select chain reads the named codebook
  entry), and the seven points after it leave the scratch as they found it. The output block at point `t` is the
  product of `x`'s row block `t % 8` with that tile: entry `(p, q)` is the inner product over the columns of row
  `1024 · (t % 8) + p` of the flattened `x` with row `512 · (t / 8) + q` of the weights. Every point writes its
  block back, the 256 blocks tile the 8192 × 16384 result, and the closing reshape splits the row index into
  batch and position.
-/
import proofs.«418103_j69887707841172_4_alg».proof.Proof.Blocks
import proofs.«418103_j69887707841172_4_alg».proof.Proof.Pieces
import proofs.«418103_j69887707841172_4_alg».proof.Proof.Payload

set_option maxRecDepth 16384

noncomputable section

open scoped BigOperators
open Idealize.ShloMosaic Idealize.ShloMosaic.TcCoe Idealize.SL.Sem
open Idealize.ShloMosaic.Pipeline (Dat)

namespace Cert.KernelIdeal.Tiles

open Cert.KernelIdeal Cert.KernelIdeal.Gen Cert.KernelIdeal.HostVals Cert.KernelIdeal.Blocks
open Cert.KernelIdeal.Pieces Cert.KernelIdeal.Payload
open Idealize.ShloMosaic.ValueIdx Cert.Dequant

variable (m : (ℓ : Loc nD τ sig) → Buf (Elt Ideal) ℓ) (ρ : Dev nD → PrngReg)

/-- The weight matrix of the specification, over this program's argument arrays. -/
abbrev W (c : Dev nD) (o : Fin 16384) (k : Fin 4096) : EReal := weight (NA m c) (EA m c) (idA m c) o k

/-- The dequantised tile of point `t`'s blocks is rows `512 · (t / 8) …` of the weight matrix. -/
theorem tile_apply (c : Dev nD) (hcode : ∀ i, IsCode (idA m c i)) (t : Fin cfg0.N) (r : Fin 512) (k : Fin 4096) :
    k0_pay1 (F := Ideal) (idBlk m c t) (cbBlk m c t) (scBlk m c t) (ix2 r k) = W m c (wrow t r) k := by
  rw [pay1_apply, cbBlk_apply, cbBlk_apply, cbBlk_apply, cbBlk_apply, idBlk_apply, scBlk_apply,
    pick_eq_entry _ _ (hcode _)]
  rfl

/-- At a tile's first point the scratch is left holding the tile. -/
theorem scratch_first (c : Dev nD) (hcode : ∀ i, IsCode (idA m c i)) (t : Fin cfg0.N) (h0 : t.val % 8 = 0)
    (r : Fin 512) (k : Fin 4096) :
    (outsAt0 m c t.val t.isLt).2 (ix2 r k) = W m c (wrow t r) k := by
  rw [outsAt0_A m c t h0]
  dsimp only
  refine (congrFun (scratch_A (F := Ideal) c (grid0.coords t) (ms0_0 t) (hs0_0 t) (ms0_1 t) (hs0_1 t) (ms0_2 t) (hs0_2 t)
    (ms0_3 t) (hs0_3 t) (ms0_4 t) (hs0_4 t) scM0_0 (Memref.isWhole_whole _) ((hcond0_0 t).mpr h0)
    (iblk m c 0 t) (iblk m c 1 t) (iblk m c 2 t) (iblk m c 3 t)) (ix2 r k)).trans ?_
  exact tile_apply m c hcode t r k

/-- THE SCRATCH AFTER EVERY POINT holds the weight tile of the point's outer coordinate — by induction on the
    point: a tile's first point writes it, the others keep it. -/
theorem scratch_eq (c : Dev nD) (hcode : ∀ i, IsCode (idA m c i)) :
    ∀ (n : ℕ) (hn : n < cfg0.N) (r : Fin 512) (k : Fin 4096),
      (outsAt0 m c n hn).2 (ix2 r k) = W m c (wrow ⟨n, hn⟩ r) k := by
  intro n
  induction n with
  | zero => intro hn r k; exact scratch_first m c hcode ⟨0, hn⟩ (Nat.zero_mod _) r k
  | succ n ih =>
    intro hn r k
    by_cases h0 : (n + 1) % 8 = 0
    · exact scratch_first m c hcode ⟨n + 1, hn⟩ h0 r k
    · rw [outsAt0_B m c ⟨n + 1, hn⟩ h0]
      dsimp only
      unfold sout0_B_0
      show (outsAt0 m c n (Nat.lt_of_succ_lt hn)).2 (ix2 r k) = _
      rw [ih (Nat.lt_of_succ_lt hn) r k]
      have e : wrow ⟨n, Nat.lt_of_succ_lt hn⟩ r = wrow ⟨n + 1, hn⟩ r :=
        Fin.ext (by show n / 8 * 512 + r.val = (n + 1) / 8 * 512 + r.val; omega)
      rw [e]

/-- THE OUTPUT BLOCK at every point: row block `t % 8` of `x` times weight tile `t / 8`. -/
theorem out_eq (c : Dev nD) (hcode : ∀ i, IsCode (idA m c i)) (t : Fin cfg0.N) (p : Fin 1024) (q : Fin 512) :
    (outsAt0 m c t.val t.isLt).1 (ix2 p q) = ∑ k : Fin 4096, xBlk m c t (ix2 p k) * W m c (wrow t q) k := by
  by_cases h0 : t.val % 8 = 0
  · rw [outsAt0_A m c t h0]
    dsimp only
    refine (congrFun (out_A (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) ((hcond0_0 t).mpr h0)
      (iblk m c 0 t) (iblk m c 1 t) (iblk m c 2 t) (iblk m c 3 t)) (ix2 p q)).trans ?_
    refine (pay2_apply (iblk m c 3 t) (k0_pay1 (F := Ideal) (idBlk m c t) (cbBlk m c t) (scBlk m c t)) p q).trans ?_
    exact Finset.sum_congr rfl fun k _ => congrArg (xBlk m c t (ix2 p k) * ·) (tile_apply m c hcode t q k)
  · have hpos : 0 < t.val := Nat.pos_of_ne_zero fun hz => h0 (by rw [hz])
    rw [outsAt0_B m c t h0]
    dsimp only
    refine (congrFun (out_B (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) (fun h => h0 ((hcond0_0 t).mp h))
      (iblk m c 0 t) (iblk m c 1 t) (iblk m c 2 t) (iblk m c 3 t)
      (outsAt0 m c (t.val - 1) (Nat.lt_of_le_of_lt (Nat.sub_le _ _) t.isLt)).2) (ix2 p q)).trans ?_
    refine (pay2_apply (iblk m c 3 t) (outsAt0 m c (t.val - 1) (Nat.lt_of_le_of_lt (Nat.sub_le _ _) t.isLt)).2 p q).trans ?_
    refine Finset.sum_congr rfl fun k _ => congrArg (xBlk m c t (ix2 p k) * ·) ?_
    rw [scratch_eq m c hcode (t.val - 1) _ q k]
    have e : wrow ⟨t.val - 1, Nat.lt_of_le_of_lt (Nat.sub_le _ _) t.isLt⟩ q = wrow t q :=
      Fin.ext (by show (t.val - 1) / 8 * 512 + q.val = t.val / 8 * 512 + q.val; omega)
    rw [e]

/-- The result of the region, before the closing reshape: the product of the flattened `x` with the weights. -/
def flat (c : Dev nD) : FVec Ideal S8192x16384 .f32 := fun i =>
  ∑ k : Fin 4096, xA m c (ix3 (⟨(i 0).val / 2048, by have h : (i 0).val < 8192 := (i 0).isLt; omega⟩ : Fin 4)
    (⟨(i 0).val % 2048, by omega⟩ : Fin 2048) k) * W m c ⟨(i 1).val, (i 1).isLt⟩ k

/-- WHAT POINT `t` WRITES BACK is block `t` of `flat`. -/
theorem flushed_eq (c : Dev nD) (hcode : ∀ i, IsCode (idA m c i)) (t : Fin cfg0.N) :
    (dats m 0 c).flushed 4 t = ((cfg0.win 4).blk t).view.read (Elt Ideal) (flat m c) := by
  obtain ⟨-, -, -, -, -, -, -, -, e0, e1⟩ := idx_facts t
  show (cfg0.win 4).cut (grid0.coords t) ((dats m 0 c).after 4 t) = _
  rw [after0_4]
  funext j
  obtain ⟨p, q, rfl⟩ : ∃ (p : Fin 1024) (q : Fin 512), j = ix2 p q := ⟨j 0, j 1, eq_ix2 j⟩
  show (outsAt0 m c t.val t.isLt).1 (ix2 p q) = flat m c (((cfg0.win 4).blk t).view.emb (ix2 p q))
  have he : ((cfg0.win 4).blk t).view.emb (ix2 p q) = (ix2 (xrow t p) (wrow t q) : S8192x16384.Idx) := by
    funext a; apply Fin.ext
    match a with
    | ⟨0, _⟩ => show win0_4.index t (0 : Fin 2) * 1024 + 1 * p.val = t.val % 8 * 1024 + p.val; omega
    | ⟨1, _⟩ => show win0_4.index t (1 : Fin 2) * 512 + 1 * q.val = t.val / 8 * 512 + q.val; omega
  rw [he, out_eq m c hcode t p q]
  exact Finset.sum_congr rfl fun k _ => congrArg (· * W m c (wrow t q) k) (xBlk_apply m c t p k)

/-- An index of the result is in point `t`'s block iff each coordinate is in the block's range on its axis. -/
theorem mem_blk (t : Fin cfg0.N) (i : S8192x16384.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v13).slice (win0_4.rect t)).set ↔ _
  rw [View.set_slice_whole, Rect.mem_set_unit]
  exact Iff.rfl

/-- THE REGION'S RESULT ARRAY after the run is `flat`: the point whose block holds entry `(R, o)` is
    `8 · (o / 512) + R / 1024`. -/
theorem final (c : Dev nD) (hcode : ∀ i, IsCode (idA m c i)) : (dats m 0 c).arrAt 4 cfg0.N = flat m c :=
  (dats m 0 c).arrAt_eq_of_cover 4 (flat m c) (fun t _ => flushed_eq m c hcode t) fun i => by
    have hN : cfg0.N = 256 := N_0
    have h0 : (i 0).val < 8192 := (i 0).isLt
    have h1 : (i 1).val < 16384 := (i 1).isLt
    refine ⟨⟨(i 1).val / 512 * 8 + (i 0).val / 1024, by rw [hN]; omega⟩, flush0_4 _, ?_⟩
    rw [mem_blk]
    obtain ⟨-, -, -, -, -, -, -, -, e0, e1⟩ := idx_facts ⟨(i 1).val / 512 * 8 + (i 0).val / 1024, by rw [hN]; omega⟩
    intro a
    match a with
    | ⟨0, _⟩ =>
      show win0_4.index _ (0 : Fin 2) * 1024 ≤ (i 0).val ∧ (i 0).val < win0_4.index _ (0 : Fin 2) * 1024 + 1024
      rw [e0]; dsimp only; omega
    | ⟨1, _⟩ =>
      show win0_4.index _ (1 : Fin 2) * 512 ≤ (i 1).val ∧ (i 1).val < win0_4.index _ (1 : Fin 2) * 512 + 512
      rw [e1]; dsimp only; omega

/-- The closing reshape of `flat` is the specification: row `2048 · b + s` is batch `b`, position `s`. -/
theorem reshape_flat (c : Dev nD) :
    shapeCast S4x2048x16384 (flat m c) Facts₀.shapeCasts_S8192x16384_S4x2048x16384
      = G (NA m c) (EA m c) (xA m c) (idA m c) := by
  funext j
  obtain ⟨b, s, o, rfl⟩ : ∃ (b : Fin 4) (s : Fin 2048) (o : Fin 16384), j = ix3 b s o := ⟨j 0, j 1, j 2, eq_ix3 j⟩
  refine (shapeCast_apply _ _ (ix3 b s o) (ix2 (⟨b.val * 2048 + s.val, by omega⟩ : Fin 8192) o) (by
    rw [Shape.rowMajor_val_three, Shape.rowMajor_val_two]
    show (b.val * 2048 + s.val) * 16384 + o.val = (b.val * 2048 + s.val) * 16384 + o.val; rfl)).trans ?_
  rw [G_apply]
  unfold flat outAt
  refine Finset.sum_congr rfl fun k _ => ?_
  have eb : (⟨(b.val * 2048 + s.val) / 2048, by omega⟩ : Fin 4) = b := Fin.ext (by show (b.val * 2048 + s.val) / 2048 = b.val; omega)
  have es : (⟨(b.val * 2048 + s.val) % 2048, by omega⟩ : Fin 2048) = s := Fin.ext (by show (b.val * 2048 + s.val) % 2048 = s.val; omega)
  show xA m c (ix3 (⟨(b.val * 2048 + s.val) / 2048, _⟩ : Fin 4) (⟨(b.val * 2048 + s.val) % 2048, _⟩ : Fin 2048) k) * W m c o k = _
  rw [eb, es]

/-- The program's result buffer after the region and the closing reshape. -/
theorem tail_eq (c : Dev nD) (hcode : ∀ i, IsCode (idA m c i)) :
    Pipeline.afterTail₀ cfgs (dats m) 0 (V0 m) [hostOps1] c main_v14 = G (NA m c) (EA m c) (xA m c) (idA m c) := by
  unfold Pipeline.afterTail₀
  show StableHlo.after hostOps1 _ (Proc.devRef .tc main_v14) = _
  after_results
  rw [(Pipeline.withArrays_arr spec0 launch0.win.arr_inj c _ _ 4).trans (final m c hcode)]
  exact reshape_flat m c

/-- THE RUN, READ: on valid codes every weakly fair execution ends with the result at the specification and the
    arguments unchanged. -/
theorem run (hcode : ∀ c i, IsCode (idA m c i)) :
    θ_run defs (onTc (τ := τ) (main (F := Ideal))) ⟨m, fun _ => 0, ρ⟩ (fun r => ∀ c : Dev nD,
      r.2.mem ((c.tc : Thread nD τ).loc main_v14) = G (NA m c) (EA m c) (xA m c) (idA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v14 (Pipeline.mem_restRefs_of main_v14 (by decide) (by decide))).trans (tail_eq m c (hcode c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Tiles

end
-- ==== Proof.RefValue.lean ====
/-
  The reference program's result, read at an index, is the specification `Cert.Dequant.G`.

  The reference gathers the normalised codebook at the code words (a negative word first wrapped by the table's
  length, then the start index clamped into the table), multiplies by the group's scale broadcast along the 32
  lanes, flattens (row, group, lane) to (row, 32 · group + lane) and contracts with `x` over the 4096 columns.
  On valid codes the wrap is the identity, so the gathered value is `entry` of the code word; the flattening
  reads column `k` at group `k / 32`, lane `k % 32`; what is left is the specification's sum, term by term.
-/
import proofs.«418103_j69887707841172_4_alg».proof.Proof.Gen.ReferenceIdeal.Read
import proofs.«418103_j69887707841172_4_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Dequant

/-- The gather of a 4-entry table at start indices `[o, g, l, 0]`, read at `(o, g, l)`: the table at the start
    index read signed and clamped into `[0, 3]` — one collapsed operand axis, no offset axis, no batching axis. -/
theorem gather_apply (x : S4.Idx → EReal) (idx : IVec S16384x128x32x1 32) (o : Fin 16384) (g : Fin 128) (l : Fin 32) :
    Host.gather gather_S4_S16384x128x32x1_S16384x128x32_n_0_n_n_0_3_1 x idx (ix3 o g l)
      = entry x (idx (ix4 o g l (0 : Fin 1))) := by
  unfold Host.gather entry
  congr 1
  funext a
  obtain rfl : a = 0 := Subsingleton.elim _ _
  refine Fin.ext ?_
  show gather_S4_S16384x128x32x1_S16384x128x32_n_0_n_n_0_3_1.start (ix3 o g l) idx 0
      + gather_S4_S16384x128x32x1_S16384x128x32_n_0_n_n_0_3_1.batchCoord (ix3 o g l) 0
      + gather_S4_S16384x128x32x1_S16384x128x32_n_0_n_n_0_3_1.offCoord (ix3 o g l) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S4_S16384x128x32x1_S16384x128x32_n_0_n_n_0_3_1.startIndexMap from List.mem_singleton.mpr rfl)]
  have hsi : gather_S4_S16384x128x32x1_S16384x128x32_n_0_n_n_0_3_1.siIdx (ix3 o g l)
      ⟨List.idxOf (0 : Fin 1) gather_S4_S16384x128x32x1_S16384x128x32_n_0_n_n_0_3_1.startIndexMap,
        List.idxOf_lt_length_iff.2 (List.mem_singleton.mpr rfl)⟩ = ix4 o g l (0 : Fin 1) := by
    funext b; refine Fin.ext ?_
    match b with
    | ⟨0, _⟩ => rfl
    | ⟨1, _⟩ => rfl
    | ⟨2, _⟩ => rfl
    | ⟨3, _⟩ => rfl
  rw [hsi]
  rfl

/-- The gathered table entry at `(o, g, l)`: on a valid code the wrap changes nothing, so it is the entry the code
    names. -/
theorem gathered_apply (x1 : FVec Ideal S4 .f32) (x3 : IVec S16384x128x32 32) (hcode : ∀ i, IsCode (x3 i))
    (o : Fin 16384) (g : Fin 128) (l : Fin 32) :
    val_main_v11 (F := Ideal) x1 x3 (ix3 o g l) = entry (val_main_v4 (F := Ideal) x1) (x3 (ix3 o g l)) := by
  unfold val_main_v11
  rw [gather_apply, val_main_v10_apply, val_main_v9_apply, val_main_v6_apply, val_main_v8_apply, val_main_v5_apply,
    val_main_v7_apply, val_main_c_apply, val_main_c_1_apply]
  have e : idx_main_v10 (ix4 o g l (0 : Fin 1)) = ix3 o g l := funext fun a => Fin.ext (by
    match a with
    | ⟨0, _⟩ => rfl
    | ⟨1, _⟩ => rfl
    | ⟨2, _⟩ => rfl)
  rw [e, wrap_code _ (hcode _)]

/-- The scale broadcast along the lanes, at `(o, g, l)`: the exponential of the stored log-scale of group `g`. -/
theorem scale_apply (x2 : FVec Ideal S16384x128x1 .f32) (o : Fin 16384) (g : Fin 128) (l : Fin 32) :
    val_main_v13 (F := Ideal) x2 (ix3 o g l) = Host.exp (F := Ideal) x2 (ix3 o g (0 : Fin 1)) := by
  rw [val_main_v13_apply]
  have e : idx_main_v13 (ix3 o g l) = ix3 o g (0 : Fin 1) := funext fun a => Fin.ext (by
    match a with
    | ⟨0, _⟩ => rfl
    | ⟨1, _⟩ => rfl
    | ⟨2, _⟩ => rfl)
  rw [e]
  rfl

/-- The flattened weight matrix at row `o`, column `k` is the specification's weight. -/
theorem weight_apply (x1 : FVec Ideal S4 .f32) (x2 : FVec Ideal S16384x128x1 .f32) (x3 : IVec S16384x128x32 32)
    (hcode : ∀ i, IsCode (x3 i)) (o : Fin 16384) (k : Fin 4096) :
    val_main_v15 (F := Ideal) x1 x2 x3 (ix2 o k)
      = weight (val_main_v4 (F := Ideal) x1) (Host.exp (F := Ideal) x2) x3 o k := by
  rw [val_main_v15_apply]
  have e : idx_main_v15 (ix2 o k) = ix3 o (grp k) (lane k) := funext fun a => Fin.ext (by
    have ho : o.val < 16384 := o.isLt
    have hk : k.val < 4096 := k.isLt
    match a with
    | ⟨0, _⟩ => show (o.val * 4096 + k.val) / 4096 = o.val; omega
    | ⟨1, _⟩ => show (o.val * 4096 + k.val) / 32 % 128 = k.val / 32; omega
    | ⟨2, _⟩ => show (o.val * 4096 + k.val) % 32 = k.val % 32; omega)
  rw [e, val_main_v14_apply, gathered_apply x1 x3 hcode, scale_apply]
  rfl

/-- THE REFERENCE IS THE SPECIFICATION: on valid codes the reference's result array is `G` of the normalised
    codebook, the scales' exponentials, `x` and the codes. -/
theorem result_eq (x0 : FVec Ideal S4x2048x4096 .f32) (x1 : FVec Ideal S4 .f32) (x2 : FVec Ideal S16384x128x1 .f32)
    (x3 : IVec S16384x128x32 32) (hcode : ∀ i, IsCode (x3 i)) :
    val_main_v16 (F := Ideal) x0 x1 x2 x3
      = G (val_main_v4 (F := Ideal) x1) (Host.exp (F := Ideal) x2) x0 x3 := by
  funext j
  obtain ⟨b, s, o, rfl⟩ : ∃ (b : Fin 4) (s : Fin 2048) (o : Fin 16384), j = ix3 b s o := ⟨j 0, j 1, j 2, eq_ix3 j⟩
  rw [val_main_v16_apply, G_apply]
  unfold outAt
  refine Finset.sum_congr rfl fun k _ => ?_
  have el : lidx_main_v16 (ix3 b s o) k = ix3 b s k := funext fun a => Fin.ext (by
    match a with
    | ⟨0, _⟩ => rfl
    | ⟨1, _⟩ => rfl
    | ⟨2, _⟩ => rfl)
  have er : ridx_main_v16 (ix3 b s o) k = ix2 o k := funext fun a => Fin.ext (by
    match a with
    | ⟨0, _⟩ => rfl
    | ⟨1, _⟩ => rfl)
  rw [el, er, weight_apply x1 x2 x3 hcode]

end Cert.ReferenceIdeal.RefValue

end
-- ==== Proof.PreDecode.lean ====
/-
  The precondition, read back: where the printed predicate holds, every code word is one of `0, 1, 2, 3`.

  The predicate's last conjunct is `jnp.all((indexes >= 0) & (indexes < 4))`: a reduction by `and` over the whole
  array of the two signed comparisons against the splat constants 0 and 4. The reduction being 1 gives both
  comparisons at every index, and a word that is non-negative and below 4 as a signed integer is a valid code.
-/
import proofs.«418103_j69887707841172_4_alg».proof.Pre_finite_inputs
import proofs.«418103_j69887707841172_4_alg».proof.Proof.Spec
import Idealize.ShloMosaic.Lib.ReduceAll
import Idealize.ShloMosaic.Lib.StableHlo.Predicate
import Idealize.ShloMosaic.Lib.Pipeline.Value

noncomputable section

namespace Cert.PreDecode

open Idealize.ShloMosaic Idealize.ShloMosaic.ValueIdx Cert.Dequant Cert.Pre_finite_inputs

instance : Subsingleton Cert.Pre_finite_inputs.S_.Idx := ⟨fun a b => funext fun d => d.elim0⟩

/-- Where the precondition holds, every code word is a valid code. -/
theorem codes_of_pre {F : FTy → Type} [FloatOps F] [Cert.Pre_finite_inputs.Facts]
    (a0 : FVec F S4x2048x4096 .f32) (a1 : FVec F S4 .f32) (a2 : FVec F S16384x128x1 .f32) (a3 : IVec S16384x128x32 32)
    (h : Cert.Pre_finite_inputs.fn (F := F) a0 a1 a2 a3 = fun _ => 1#1) (i : S16384x128x32.Idx) :
    IsCode (a3 i) := by
  have h0 := congrFun h ix0
  dsimp only [Cert.Pre_finite_inputs.fn, Cert.Pre_finite_inputs.fn_part1] at h0
  obtain ⟨-, hr⟩ := IntOp.andi_eq_one.1 h0
  have hi := Host.reduce_andi_all _ _ _ _ _ hr i
  obtain ⟨hge, hlt⟩ := IntOp.andi_eq_one.1 hi
  have e0 : broadcastInDim S16384x128x32 ![] Facts.bcast_S_S16384x128x32 (constantI S_ 32 0#32) i = 0#32 :=
    broadcastInDim_apply _ Facts.bcast_S_S16384x128x32 (constantI S_ 32 0#32) i ix0 (fun a => a.elim0)
  have e4 : broadcastInDim S16384x128x32 ![] Facts.bcast_S_S16384x128x32 (constantI S_ 32 4#32) i = 4#32 :=
    broadcastInDim_apply _ Facts.bcast_S_S16384x128x32 (constantI S_ 32 4#32) i ix0 (fun a => a.elim0)
  have hge' : IntOp.cmpi .sge (a3 i) 0#32 = 1#1 := by rw [← e0]; exact hge
  have hlt' : IntOp.cmpi .slt (a3 i) 4#32 = 1#1 := by rw [← e4]; exact hlt
  exact isCode_of_bounds _ ((StableHlo.Predicate.ofBool_eq_one_iff _).1 hge') ((StableHlo.Predicate.ofBool_eq_one_iff _).1 hlt')

end Cert.PreDecode

end
-- ==== Proof.lean ====
/-
  A linear layer whose weights are stored as two-bit codes into a four-entry codebook, with one log-scale per
  group of 32 columns: `out[b, s, o] = ∑ₖ x[b, s, k] · N[code[o, k / 32, k % 32]] · exp(scale[o, k / 32])`, where
  `N` is the codebook divided by its largest absolute entry (floored at a tiny positive constant).

  The kernel flattens the codes and the scales to (row, column) arrays, and on a grid of 32 weight tiles by 8 row
  blocks of `x` dequantises each tile once (a chain of selects on the code clamped into `[0, 3]`, times the scale),
  keeps it in a scratch buffer for the tile's eight points, and multiplies each `x` block with it. The reference
  gathers the codebook at the codes (a negative code wrapped by 4, then clamped), scales, flattens and contracts
  in one `dot_general`. The two readings of a code agree exactly on the valid codes `0, 1, 2, 3`, which is what the
  precondition's last conjunct states; there both programs compute the same sum, term by term, in the same order of
  factors, so nothing is used of the extended reals beyond the sum itself.

  The kernel's value is read off its generated frame run (Proof/Tiles.lean, over Proof/Pieces.lean, Proof/Payload.lean,
  Proof/Blocks.lean and Proof/HostVals.lean), the reference's off its generated run and read lemmas
  (Proof/RefValue.lean); Proof/Spec.lean is the common function and Proof/PreDecode.lean the precondition read back.
-/
import proofs.«418103_j69887707841172_4_alg».proof.Defs
import proofs.«418103_j69887707841172_4_alg».proof.Proof.Gen.Kernel
import proofs.«418103_j69887707841172_4_alg».proof.Proof.Gen.Kernel.Skeleton
import proofs.«418103_j69887707841172_4_alg».proof.Proof.Gen.Kernel.Launch
import proofs.«418103_j69887707841172_4_alg».proof.Proof.Gen.Kernel.Points
import proofs.«418103_j69887707841172_4_alg».proof.Proof.Gen.Kernel.Frame
import proofs.«418103_j69887707841172_4_alg».proof.Proof.Gen.KernelIdeal
import proofs.«418103_j69887707841172_4_alg».proof.Proof.Gen.KernelIdeal.Skeleton
import proofs.«418103_j69887707841172_4_alg».proof.Proof.Gen.KernelIdeal.Launch
import proofs.«418103_j69887707841172_4_alg».proof.Proof.Gen.KernelIdeal.Points
import proofs.«418103_j69887707841172_4_alg».proof.Proof.Gen.KernelIdeal.Frame
import proofs.«418103_j69887707841172_4_alg».proof.Proof.Gen.ReferenceIdeal
import proofs.«418103_j69887707841172_4_alg».proof.Proof.Gen.ReferenceIdeal.Run
import proofs.«418103_j69887707841172_4_alg».proof.Proof.Gen.Pre_finite_inputs
import proofs.«418103_j69887707841172_4_alg».proof.Proof.Tiles
import proofs.«418103_j69887707841172_4_alg».proof.Proof.RefValue
import proofs.«418103_j69887707841172_4_alg».proof.Proof.PreDecode
import Idealize.ShloMosaic.Adequacy
import Idealize.ShloMosaic.Init

noncomputable section

namespace Cert.Proof

open Idealize.ShloMosaic Idealize.SL.Sem Cert.Dequant

/-- The word-level kernel runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Where the precondition holds every code is valid, the kernel's result array ends at the specification of its
    arguments (Proof/Tiles.lean) and the reference's at the specification of its own (Proof/RefValue.lean); the
    arguments agree, and the two normalised codebooks are the same operations of the same codebook. -/
theorem algebraic : Cert.algebraic_KernelIdeal_ReferenceIdeal := by
  intro m ρ m' ρ' hpre hagree
  have hcode : ∀ (c : Dev Cert.KernelIdeal.nD) i, IsCode (Cert.KernelIdeal.Blocks.idA m c i) :=
    fun c i => Cert.PreDecode.codes_of_pre _ _ _ _ (hpre c) i
  refine ⟨fun c => G (Cert.KernelIdeal.Blocks.NA m c) (Cert.KernelIdeal.Blocks.EA m c) (Cert.KernelIdeal.Blocks.xA m c)
    (Cert.KernelIdeal.Blocks.idA m c), Cert.KernelIdeal.Tiles.run m ρ hcode, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v16_eq _ _ _ _).trans
    ((Cert.ReferenceIdeal.RefValue.result_eq _ _ _ _ (hcode c)).trans rfl)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
